-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x32 : Shape := ⟨2, ![50000, 32]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S50000x32 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S50000x32 : Shape := ⟨2, ![50000, 32]⟩
abbrev S128x128 : Shape := ⟨2, ![128, 128]⟩
abbrev S128 : Shape := ⟨1, ![128]⟩
abbrev S_ : Shape := ⟨0, ![]⟩
abbrev S50000x32x1 : Shape := ⟨3, ![50000, 32, 1]⟩
abbrev S50000x32x128 : Shape := ⟨3, ![50000, 32, 128]⟩
abbrev S1000x32x128 : Shape := ⟨3, ![1000, 32, 128]⟩
abbrev S1000x128 : Shape := ⟨2, ![1000, 128]⟩
abbrev S1000x1x128 : Shape := ⟨3, ![1000, 1, 128]⟩
abbrev S1x128 : Shape := ⟨2, ![1, 128]⟩

abbrev nBuf : Space → Nat
  | .hbm => 15
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S50000x32, .i32⟩
  | .hbm, ⟨2, _⟩ => ⟨S128x128, .f32⟩
  | .hbm, ⟨3, _⟩ => ⟨S128, .f32⟩
  | .hbm, ⟨4, _⟩ => ⟨S_, .i32⟩
  | .hbm, ⟨5, _⟩ => ⟨S50000x32, .i32⟩
  | .hbm, ⟨6, _⟩ => ⟨S50000x32, .i1⟩
  | .hbm, ⟨7, _⟩ => ⟨S_, .i32⟩
  | .hbm, ⟨8, _⟩ => ⟨S50000x32, .i32⟩
  | .hbm, ⟨9, _⟩ => ⟨S50000x32, .i32⟩
  | .hbm, ⟨10, _⟩ => ⟨S50000x32, .i32⟩
  | .hbm, ⟨11, _⟩ => ⟨S50000x32x1, .i32⟩
  | .hbm, ⟨12, _⟩ => ⟨S50000x32x128, .f32⟩
  | .hbm, ⟨13, _⟩ => ⟨S128x128, .f32⟩
  | .hbm, ⟨14, _⟩ => ⟨S50000x128, .f32⟩
  | .local _ .vmem, ⟨0, _⟩ => ⟨S1000x32x128, .f32⟩
  | .local _ .vmem, ⟨1, _⟩ => ⟨S1000x32x128, .f32⟩
  | .local _ .vmem, ⟨2, _⟩ => ⟨S128x128, .f32⟩
  | .local _ .vmem, ⟨3, _⟩ => ⟨S128, .f32⟩
  | .local _ .vmem, ⟨4, _⟩ => ⟨S1000x128, .f32⟩
  | .local _ .vmem, ⟨5, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  transposes_S128x128_S128x128_1_0 : S128x128.Transposes [1, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S128_S128_0 : ∀ a, (![0] : Fin 1 → Nat) a + S128.size a ≤ S128.size a
  h_S128 : 0 < S128.numel
  inb_S1000x32x128_S1000x1x128_0_0_0 : ∀ a, (![0, 0, 0] : Fin 3 → Nat) a + S1000x1x128.size a ≤ S1000x32x128.size a
  h_S1000x1x128 : 0 < S1000x1x128.numel
  shapeCasts_S1000x1x128_S1000x128 : S1000x1x128.ShapeCasts S1000x128
  shapeCasts_S128_S1x128 : S128.ShapeCasts S1x128
  broadcasts_S1x128_S1000x128 : S1x128.Broadcasts S1000x128
  inb_S1000x32x128_S1000x1x128_0_1_0 : ∀ a, (![0, 1, 0] : Fin 3 → Nat) a + S1000x1x128.size a ≤ S1000x32x128.size a
  inb_S1000x32x128_S1000x1x128_0_2_0 : ∀ a, (![0, 2, 0] : Fin 3 → Nat) a + S1000x1x128.size a ≤ S1000x32x128.size a
  inb_S1000x32x128_S1000x1x128_0_3_0 : ∀ a, (![0, 3, 0] : Fin 3 → Nat) a + S1000x1x128.size a ≤ S1000x32x128.size a
  inb_S1000x32x128_S1000x1x128_0_4_0 : ∀ a, (![0, 4, 0] : Fin 3 → Nat) a + S1000x1x128.size a ≤ S1000x32x128.size a
  inb_S1000x32x128_S1000x1x128_0_5_0 : ∀ a, (![0, 5, 0] : Fin 3 → Nat) a + S1000x1x128.size a ≤ S1000x32x128.size a
  inb_S1000x32x128_S1000x1x128_0_6_0 : ∀ a, (![0, 6, 0] : Fin 3 → Nat) a + S1000x1x128.size a ≤ S1000x32x128.size a
  inb_S1000x32x128_S1000x1x128_0_7_0 : ∀ a, (![0, 7, 0] : Fin 3 → Nat) a + S1000x1x128.size a ≤ S1000x32x128.size a
  inb_S1000x32x128_S1000x1x128_0_8_0 : ∀ a, (![0, 8, 0] : Fin 3 → Nat) a + S1000x1x128.size a ≤ S1000x32x128.size a
  inb_S1000x32x128_S1000x1x128_0_9_0 : ∀ a, (![0, 9, 0] : Fin 3 → Nat) a + S1000x1x128.size a ≤ S1000x32x128.size a
  inb_S1000x32x128_S1000x1x128_0_10_0 : ∀ a, (![0, 10, 0] : Fin 3 → Nat) a + S1000x1x128.size a ≤ S1000x32x128.size a
  inb_S1000x32x128_S1000x1x128_0_11_0 : ∀ a, (![0, 11, 0] : Fin 3 → Nat) a + S1000x1x128.size a ≤ S1000x32x128.size a
  inb_S1000x32x128_S1000x1x128_0_12_0 : ∀ a, (![0, 12, 0] : Fin 3 → Nat) a + S1000x1x128.size a ≤ S1000x32x128.size a
  inb_S1000x32x128_S1000x1x128_0_13_0 : ∀ a, (![0, 13, 0] : Fin 3 → Nat) a + S1000x1x128.size a ≤ S1000x32x128.size a
  inb_S1000x32x128_S1000x1x128_0_14_0 : ∀ a, (![0, 14, 0] : Fin 3 → Nat) a + S1000x1x128.size a ≤ S1000x32x128.size a
  inb_S1000x32x128_S1000x1x128_0_15_0 : ∀ a, (![0, 15, 0] : Fin 3 → Nat) a + S1000x1x128.size a ≤ S1000x32x128.size a
  inb_S1000x32x128_S1000x1x128_0_16_0 : ∀ a, (![0, 16, 0] : Fin 3 → Nat) a + S1000x1x128.size a ≤ S1000x32x128.size a
  inb_S1000x32x128_S1000x1x128_0_17_0 : ∀ a, (![0, 17, 0] : Fin 3 → Nat) a + S1000x1x128.size a ≤ S1000x32x128.size a
  inb_S1000x32x128_S1000x1x128_0_18_0 : ∀ a, (![0, 18, 0] : Fin 3 → Nat) a + S1000x1x128.size a ≤ S1000x32x128.size a
  inb_S1000x32x128_S1000x1x128_0_19_0 : ∀ a, (![0, 19, 0] : Fin 3 → Nat) a + S1000x1x128.size a ≤ S1000x32x128.size a
  inb_S1000x32x128_S1000x1x128_0_20_0 : ∀ a, (![0, 20, 0] : Fin 3 → Nat) a + S1000x1x128.size a ≤ S1000x32x128.size a
  inb_S1000x32x128_S1000x1x128_0_21_0 : ∀ a, (![0, 21, 0] : Fin 3 → Nat) a + S1000x1x128.size a ≤ S1000x32x128.size a
  inb_S1000x32x128_S1000x1x128_0_22_0 : ∀ a, (![0, 22, 0] : Fin 3 → Nat) a + S1000x1x128.size a ≤ S1000x32x128.size a
  inb_S1000x32x128_S1000x1x128_0_23_0 : ∀ a, (![0, 23, 0] : Fin 3 → Nat) a + S1000x1x128.size a ≤ S1000x32x128.size a
  inb_S1000x32x128_S1000x1x128_0_24_0 : ∀ a, (![0, 24, 0] : Fin 3 → Nat) a + S1000x1x128.size a ≤ S1000x32x128.size a
  inb_S1000x32x128_S1000x1x128_0_25_0 : ∀ a, (![0, 25, 0] : Fin 3 → Nat) a + S1000x1x128.size a ≤ S1000x32x128.size a
  inb_S1000x32x128_S1000x1x128_0_26_0 : ∀ a, (![0, 26, 0] : Fin 3 → Nat) a + S1000x1x128.size a ≤ S1000x32x128.size a
  inb_S1000x32x128_S1000x1x128_0_27_0 : ∀ a, (![0, 27, 0] : Fin 3 → Nat) a + S1000x1x128.size a ≤ S1000x32x128.size a
  inb_S1000x32x128_S1000x1x128_0_28_0 : ∀ a, (![0, 28, 0] : Fin 3 → Nat) a + S1000x1x128.size a ≤ S1000x32x128.size a
  inb_S1000x32x128_S1000x1x128_0_29_0 : ∀ a, (![0, 29, 0] : Fin 3 → Nat) a + S1000x1x128.size a ≤ S1000x32x128.size a
  inb_S1000x32x128_S1000x1x128_0_30_0 : ∀ a, (![0, 30, 0] : Fin 3 → Nat) a + S1000x1x128.size a ≤ S1000x32x128.size a
  inb_S1000x32x128_S1000x1x128_0_31_0 : ∀ a, (![0, 31, 0] : Fin 3 → Nat) a + S1000x1x128.size a ≤ S1000x32x128.size a
  inb_S1000x128_S1000x128_0_0 : ∀ a, (![0, 0] : Fin 2 → Nat) a + S1000x128.size a ≤ S1000x128.size a
  h_S1000x128 : 0 < S1000x128.numel
  gather_S50000x128_S50000x32x1_S50000x32x128_2_0_n_n_0_2_1128_wf : GatherDims.WF S50000x128 S50000x32x1 S50000x32x128 [2] [0] [] [0] [] 2 ![1, 128]
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x32x128.size a ≤ S50000x32x128.size a
  hwx0_0 : ∀ i : grid0.Coords, EltTy.bits .f32 = 32 ∨ (Rect.block (s := S50000x32x128) S1000x32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S50000x128.size a
  hwx0_3 : ∀ i : grid0.Coords, EltTy.bits .f32 = 32 ∨ (Rect.block (s := S50000x128) S1000x128.size (cc0_transform_3 i) (hinb0_3 i)).WholeWords (EltTy.packing .f32)

variable [Facts₀]

def gather_S50000x128_S50000x32x1_S50000x32x128_2_0_n_n_0_2_1128 : GatherDims S50000x128 S50000x32x1 S50000x32x128 where
  offsetDims := [2]
  collapsedSliceDims := [0]
  operandBatchingDims := []
  startIndicesBatchingDims := []
  startIndexMap := [0]
  indexVectorDim := 2
  sliceSizes := ![1, 128]
  wf := gather_S50000x128_S50000x32x1_S50000x32x128_2_0_n_n_0_2_1128_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v6) S1000x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x32 : Shape := ⟨2, ![50000, 32]⟩
abbrev S128x128 : Shape := ⟨2, ![128, 128]⟩
abbrev S128 : Shape := ⟨1, ![128]⟩
abbrev S_ : Shape := ⟨0, ![]⟩
abbrev S50000x32x1 : Shape := ⟨3, ![50000, 32, 1]⟩
abbrev S50000x32x128 : Shape := ⟨3, ![50000, 32, 128]⟩
abbrev S1x1x128 : Shape := ⟨3, ![1, 1, 128]⟩

abbrev nBuf : Space → Nat
  | .hbm => 22
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x32, .i32⟩
  | .hbm, ⟨2, _⟩ => ⟨S128x128, .f32⟩
  | .hbm, ⟨3, _⟩ => ⟨S128, .f32⟩
  | .hbm, ⟨4, _⟩ => ⟨S_, .i32⟩
  | .hbm, ⟨5, _⟩ => ⟨S50000x32, .i32⟩
  | .hbm, ⟨6, _⟩ => ⟨S50000x32, .i1⟩
  | .hbm, ⟨7, _⟩ => ⟨S_, .i32⟩
  | .hbm, ⟨8, _⟩ => ⟨S50000x32, .i32⟩
  | .hbm, ⟨9, _⟩ => ⟨S50000x32, .i32⟩
  | .hbm, ⟨10, _⟩ => ⟨S50000x32, .i32⟩
  | .hbm, ⟨11, _⟩ => ⟨S50000x32x1, .i32⟩
  | .hbm, ⟨12, _⟩ => ⟨S50000x32x128, .f32⟩
  | .hbm, ⟨13, _⟩ => ⟨S50000x32x128, .f32⟩
  | .hbm, ⟨14, _⟩ => ⟨S1x1x128, .f32⟩
  | .hbm, ⟨15, _⟩ => ⟨S50000x32x128, .f32⟩
  | .hbm, ⟨16, _⟩ => ⟨S50000x32x128, .f32⟩
  | .hbm, ⟨17, _⟩ => ⟨S_, .f32⟩
  | .hbm, ⟨18, _⟩ => ⟨S50000x32x128, .f32⟩
  | .hbm, ⟨19, _⟩ => ⟨S50000x32x128, .f32⟩
  | .hbm, ⟨20, _⟩ => ⟨S_, .f32⟩
  | .hbm, ⟨21, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  bcast_S128_S1x1x128_2 : S128.BroadcastsInDim S1x1x128 (![2] : Fin 1 → Fin S1x1x128.rank)
  bcast_S1x1x128_S50000x32x128_0_1_2 : S1x1x128.BroadcastsInDim S50000x32x128 (![0, 1, 2] : Fin 3 → Fin S50000x32x128.rank)
  bcast_S_S50000x32x128 : S_.BroadcastsInDim S50000x32x128 (![] : Fin 0 → Fin S50000x32x128.rank)
  reducesTo_S50000x32x128_S50000x128_d1 : S50000x32x128.ReducesTo [1] S50000x128
  h_S_ : 0 < S_.numel
  gather_S50000x128_S50000x32x1_S50000x32x128_2_0_n_n_0_2_1128_wf : GatherDims.WF S50000x128 S50000x32x1 S50000x32x128 [2] [0] [] [0] [] 2 ![1, 128]
  dot_S50000x32x128_S128x128_S50000x32x128_2_1_01_0_n_n_wf : DotDims.WF S50000x32x128 S128x128 S50000x32x128 [2] [1] [0, 1] [0] [] []

variable [Facts₀]

def gather_S50000x128_S50000x32x1_S50000x32x128_2_0_n_n_0_2_1128 : GatherDims S50000x128 S50000x32x1 S50000x32x128 where
  offsetDims := [2]
  collapsedSliceDims := [0]
  operandBatchingDims := []
  startIndicesBatchingDims := []
  startIndexMap := [0]
  indexVectorDim := 2
  sliceSizes := ![1, 128]
  wf := gather_S50000x128_S50000x32x1_S50000x32x128_2_0_n_n_0_2_1128_wf
def dot_S50000x32x128_S128x128_S50000x32x128_2_1_01_0_n_n : DotDims S50000x32x128 S128x128 S50000x32x128 where
  lhsContracting := [2]
  rhsContracting := [1]
  lhsNonContracting := [0, 1]
  rhsNonContracting := [0]
  lhsBatch := []
  rhsBatch := []
  wf := dot_S50000x32x128_S128x128_S50000x32x128_2_1_01_0_n_n_wf

class Facts : Prop extends Facts₀ where

variable [Facts]
-- ==== Proof.Steps.lean ====
/-
  The kernel body as thirty-two repetitions of one step.

  At a grid point the body holds a block `x0` of the gathered features (1000 nodes × 32 neighbours × 128 features), the
  transposed weight matrix `x1` (128 × 128) and the bias `x2` (128). It keeps an accumulator of shape 1000 × 128 that
  starts at zero, and for each neighbour k = 0, …, 31 in turn replaces it by its maximum with
  `max (rows k · x1 + x2) 0`, where `rows k` are the 1000 × 128 features of neighbour k. The printed body writes this
  out neighbour by neighbour; here it is folded back into a recursion on the number of neighbours taken
  (`acc`), over one step function (`step`), at any float instance. Every equation here is an unfolding.
-/
import proofs.«175186_j19155554140404_1_alg».proof.Proof.Gen.KernelIdeal.Frame

noncomputable section

namespace Cert.KernelIdeal.Agg

open Cert.KernelIdeal Cert.KernelIdeal.Gen Idealize.ShloMosaic Idealize.ShloMosaic.TcCoe

variable {F : FTy → Type} [FloatOps F]

/-- One neighbour's step: the accumulator `a` against `max (X · w + b) 0`, the product taken on operands cut to
    bf16 into a zero accumulator, the bias one row broadcast down the 1000 rows. -/
def step (w : FVec F S128x128 .bf16) (b : Vec F S128 .f32) (a X : FVec F S1000x128 .f32) : FVec F S1000x128 .f32 :=
  maximumf a
    (maximumf
      (addf (matmul dot_S1000x128_S128x128_S1000x128_1_0_0_1_n_n none (truncf .bf16 X bitsLt_bf16_f32) w (constant S1000x128 .f32 0x00000000#32))
        (broadcastTo S1000x128 (shapeCast S1x128 b shapeCasts_S128_S1x128) broadcasts_S1x128_S1000x128))
      (broadcast S1000x128 (Scalar.ofBits .f32 0x00000000#32)))

/-- The accumulator before any neighbour: zero everywhere. -/
def acc0 : FVec F S1000x128 .f32 := broadcast S1000x128 (Scalar.ofBits .f32 0x00000000#32)

/-- A 1000 × 1 × 128 slab as a 1000 × 128 matrix. -/
def flat (v : Vec F S1000x1x128 .f32) : FVec F S1000x128 .f32 := shapeCast S1000x128 v shapeCasts_S1000x1x128_S1000x128

/-- Neighbour `k`'s slab of a block lies inside the block. -/
theorem rows_inb (k : Fin 32) : ∀ a, (![0, k.val, 0] : Fin 3 → Nat) a + S1000x1x128.size a ≤ S1000x32x128.size a := by
  intro a
  have hk := k.isLt
  match a with
  | ⟨0, _⟩ => exact Nat.le_refl _
  | ⟨1, _⟩ => show k.val + 1 ≤ 32; omega
  | ⟨2, _⟩ => exact Nat.le_refl _

/-- The rectangle of neighbour `k`'s slab in a block. -/
abbrev rowsRect (k : Fin 32) : Rect S1000x32x128 := Rect.unit (s := S1000x32x128) ![0, k.val, 0] S1000x1x128.size (rows_inb k)

/-- Neighbour `k`'s features in the block `x0`, as a 1000 × 128 matrix. -/
def rows (x0 : Vec F S1000x32x128 .f32) (k : Fin 32) : FVec F S1000x128 .f32 := flat (View.ld x0 (rowsRect k))

/-- The accumulator after the first `n` neighbours. -/
def acc (w : FVec F S128x128 .bf16) (b : Vec F S128 .f32) (X : Fin 32 → FVec F S1000x128 .f32) :
    (n : ℕ) → n ≤ 32 → FVec F S1000x128 .f32
  | 0, _ => acc0
  | n + 1, h => step w b (acc w b X n (Nat.le_of_succ_le h)) (X ⟨n, h⟩)

theorem acc_zero (w : FVec F S128x128 .bf16) (b : Vec F S128 .f32) (X : Fin 32 → FVec F S1000x128 .f32) (h : 0 ≤ 32) :
    acc w b X 0 h = acc0 := rfl

theorem acc_succ (w : FVec F S128x128 .bf16) (b : Vec F S128 .f32) (X : Fin 32 → FVec F S1000x128 .f32) (n : ℕ) (h : n + 1 ≤ 32) :
    acc w b X (n + 1) h = step w b (acc w b X n (Nat.le_of_succ_le h)) (X ⟨n, h⟩) := rfl

/-! ## The printed payloads are steps -/

theorem pay1_eq (w : FVec F S128x128 .bf16) (b : Vec F S128 .f32) (a x : FVec F S1000x128 .f32) :
    k0_pay1 w b a x = step w b a x := rfl

theorem pay3_eq (v0 : Vec F S128x128 .f32) (b : Vec F S128 .f32) (v1 v2 v3 : Vec F S1000x1x128 .f32) :
    k0_pay3 v0 b v1 v2 v3 = step (k0_pay2 v0) b (step (k0_pay2 v0) b (step (k0_pay2 v0) b acc0 (flat v1)) (flat v2)) (flat v3) := rfl

theorem pay4_eq (v : Vec F S1000x1x128 .f32) : k0_pay4 v = flat v := rfl
theorem pay6_eq (v : Vec F S1000x1x128 .f32) : k0_pay6 v = flat v := rfl
theorem pay8_eq (v : Vec F S1000x1x128 .f32) : k0_pay8 v = flat v := rfl
theorem pay10_eq (v : Vec F S1000x1x128 .f32) : k0_pay10 v = flat v := rfl
theorem pay12_eq (v : Vec F S1000x1x128 .f32) : k0_pay12 v = flat v := rfl
theorem pay14_eq (v : Vec F S1000x1x128 .f32) : k0_pay14 v = flat v := rfl
theorem pay16_eq (v : Vec F S1000x1x128 .f32) : k0_pay16 v = flat v := rfl
theorem pay18_eq (v : Vec F S1000x1x128 .f32) : k0_pay18 v = flat v := rfl

theorem pay5_eq (w : FVec F S128x128 .bf16) (b : Vec F S128 .f32) (a x : FVec F S1000x128 .f32) (v1 v2 v3 : Vec F S1000x1x128 .f32) :
    k0_pay5 w b a x v1 v2 v3 = step w b (step w b (step w b (step w b a x) (flat v1)) (flat v2)) (flat v3) := rfl
theorem pay7_eq (w : FVec F S128x128 .bf16) (b : Vec F S128 .f32) (a x : FVec F S1000x128 .f32) (v1 v2 v3 : Vec F S1000x1x128 .f32) :
    k0_pay7 w b a x v1 v2 v3 = step w b (step w b (step w b (step w b a x) (flat v1)) (flat v2)) (flat v3) := rfl
theorem pay9_eq (w : FVec F S128x128 .bf16) (b : Vec F S128 .f32) (a x : FVec F S1000x128 .f32) (v1 v2 v3 : Vec F S1000x1x128 .f32) :
    k0_pay9 w b a x v1 v2 v3 = step w b (step w b (step w b (step w b a x) (flat v1)) (flat v2)) (flat v3) := rfl
theorem pay11_eq (w : FVec F S128x128 .bf16) (b : Vec F S128 .f32) (a x : FVec F S1000x128 .f32) (v1 v2 v3 : Vec F S1000x1x128 .f32) :
    k0_pay11 w b a x v1 v2 v3 = step w b (step w b (step w b (step w b a x) (flat v1)) (flat v2)) (flat v3) := rfl
theorem pay13_eq (w : FVec F S128x128 .bf16) (b : Vec F S128 .f32) (a x : FVec F S1000x128 .f32) (v1 v2 v3 : Vec F S1000x1x128 .f32) :
    k0_pay13 w b a x v1 v2 v3 = step w b (step w b (step w b (step w b a x) (flat v1)) (flat v2)) (flat v3) := rfl
theorem pay15_eq (w : FVec F S128x128 .bf16) (b : Vec F S128 .f32) (a x : FVec F S1000x128 .f32) (v1 v2 v3 : Vec F S1000x1x128 .f32) :
    k0_pay15 w b a x v1 v2 v3 = step w b (step w b (step w b (step w b a x) (flat v1)) (flat v2)) (flat v3) := rfl
theorem pay17_eq (w : FVec F S128x128 .bf16) (b : Vec F S128 .f32) (a x : FVec F S1000x128 .f32) (v1 v2 v3 : Vec F S1000x1x128 .f32) :
    k0_pay17 w b a x v1 v2 v3 = step w b (step w b (step w b (step w b a x) (flat v1)) (flat v2)) (flat v3) := rfl

/-- What the body stores: the accumulator after all thirty-two neighbours of the block, the weights the block
    `x1` cut to bf16 and the bias the block `x2`. -/
theorem stored_eq (x0 : Vec F S1000x32x128 .f32) (x1 : Vec F S128x128 .f32) (x2 : Vec F S128 .f32) :
    out0_3 x0 x1 x2 = View.canon [⟨r0_34, acc (k0_pay2 (View.ld x1 r0_0)) (View.ld x2 r0_1) (rows x0) 32 le_rfl⟩] := by
  unfold out0_3
  rw [pay1_eq, pay17_eq, pay15_eq, pay13_eq, pay11_eq, pay9_eq, pay7_eq, pay5_eq, pay3_eq,
    pay4_eq, pay6_eq, pay8_eq, pay10_eq, pay12_eq, pay14_eq, pay16_eq, pay18_eq]
  rfl

end Cert.KernelIdeal.Agg

end
-- ==== Proof.LibMaxChain.lean ====
/-
  A running maximum, term by term, against the maximum of a finite family.

  The kernel keeps an accumulator that starts at a value `z` and takes, for k = 0, 1, …, K-1 in turn, the
  maximum with the k-th term; the reference takes the maximum of all K terms at once, starting from the least
  element. Two facts join them, in any linear order:
  * the accumulator after n steps is the fold of `max` from `z` over the terms of index below n
    (`chain_eq_fold_filter`), hence after K steps the fold over all of them (`chain_eq_fold`);
  * a fold of `max` does not depend on where it starts, as long as each start lies below some term
    (`fold_max_start`): a start that is a lower bound of everything is such, and so is a start that lies
    below every term of a nonempty family.
-/
import Mathlib.Data.Finset.Fold
import Mathlib.Data.Fintype.Basic
import Mathlib.Data.Fin.Basic

namespace MaxChain

variable {α : Type} [LinearOrder α] {K : ℕ}

/-- The accumulator after `n` steps: from `z`, the maximum with the terms `g 0, …, g (n-1)` taken one at a time. -/
def chain (g : Fin K → α) (z : α) : (n : ℕ) → n ≤ K → α
  | 0, _ => z
  | n + 1, h => max (chain g z n (Nat.le_of_succ_le h)) (g ⟨n, h⟩)

theorem chain_zero (g : Fin K → α) (z : α) (h : 0 ≤ K) : chain g z 0 h = z := rfl

theorem chain_succ (g : Fin K → α) (z : α) (n : ℕ) (h : n + 1 ≤ K) :
    chain g z (n + 1) h = max (chain g z n (Nat.le_of_succ_le h)) (g ⟨n, h⟩) := rfl

/-- After `n` steps the accumulator is the fold of `max` from `z` over the terms whose index is below `n`. -/
theorem chain_eq_fold_filter (g : Fin K → α) (z : α) :
    ∀ (n : ℕ) (h : n ≤ K), chain g z n h = (Finset.univ.filter fun k : Fin K => k.val < n).fold max z g
  | 0, _ => by
    rw [chain_zero]
    have e : (Finset.univ.filter fun k : Fin K => k.val < 0) = ∅ :=
      Finset.filter_false_of_mem fun k _ => Nat.not_lt_zero _
    rw [e, Finset.fold_empty]
  | n + 1, h => by
    rw [chain_succ, chain_eq_fold_filter g z n (Nat.le_of_succ_le h)]
    have e : (Finset.univ.filter fun k : Fin K => k.val < n + 1)
        = insert (⟨n, h⟩ : Fin K) (Finset.univ.filter fun k : Fin K => k.val < n) := by
      ext k
      simp only [Finset.mem_filter, Finset.mem_univ, true_and, Finset.mem_insert, Fin.ext_iff]
      omega
    have hn : (⟨n, h⟩ : Fin K) ∉ Finset.univ.filter fun k : Fin K => k.val < n := by
      simp only [Finset.mem_filter, Finset.mem_univ, true_and]
      exact Nat.lt_irrefl n
    rw [e, Finset.fold_insert hn, max_comm]

/-- After all `K` steps the accumulator is the fold of `max` from `z` over all the terms. -/
theorem chain_eq_fold (g : Fin K → α) (z : α) : chain g z K le_rfl = (Finset.univ : Finset (Fin K)).fold max z g := by
  rw [chain_eq_fold_filter]
  exact congrArg (fun s => Finset.fold max z g s) (Finset.filter_true_of_mem fun k _ => k.isLt)

/-- A fold of `max` over a family is the same from two starts when each start lies below some term of the family. -/
theorem fold_max_start {ι : Type} (s : Finset ι) (g : ι → α) (z b : α)
    (hz : ∃ k ∈ s, z ≤ g k) (hb : ∃ k ∈ s, b ≤ g k) : s.fold max z g = s.fold max b g := by
  apply le_antisymm
  · rw [Finset.fold_max_le]
    refine ⟨?_, fun x hx => (Finset.le_fold_max (c := _)).2 (Or.inr ⟨x, hx, le_rfl⟩)⟩
    obtain ⟨k, hk, hzk⟩ := hz
    exact (Finset.le_fold_max (c := _)).2 (Or.inr ⟨k, hk, hzk⟩)
  · rw [Finset.fold_max_le]
    refine ⟨?_, fun x hx => (Finset.le_fold_max (c := _)).2 (Or.inr ⟨x, hx, le_rfl⟩)⟩
    obtain ⟨k, hk, hbk⟩ := hb
    exact (Finset.le_fold_max (c := _)).2 (Or.inr ⟨k, hk, hbk⟩)

/-- The running maximum from `z` over `K ≥ 1` terms that all lie above `z` is the fold of `max` over them from any
    `b` below every element: the kernel's accumulator against the reference's reduction. -/
theorem chain_eq_fold_bot (g : Fin K → α) (z b : α) (hK : 0 < K) (hz : ∀ k, z ≤ g k) (hb : ∀ y, b ≤ y) :
    chain g z K le_rfl = (Finset.univ : Finset (Fin K)).fold max b g := by
  rw [chain_eq_fold]
  exact fold_max_start _ g z b ⟨⟨0, hK⟩, Finset.mem_univ _, hz _⟩ ⟨⟨0, hK⟩, Finset.mem_univ _, hb _⟩

end MaxChain
-- ==== Proof.StepsIdeal.lean ====
/-
  The kernel body's accumulator read at one entry, over the extended reals.

  At the ideal instance a cut to bf16 is the identity and a matrix product into a zero accumulator is the plain sum
  of products, so one step at entry (p, o) is
    max (a (p, o)) (max (∑ i, X (p, i) · w (i, o) + b o) 0),
  neighbour k's rows of a block `x0` at (p, i) are `x0 (p, k, i)`, and the accumulator after n neighbours is the
  running maximum, from 0, of the first n terms `max (∑ i, x0 (p, k, i) · w (i, o) + b o) 0`. After all thirty-two it
  is their maximum — the fold of `max` from −∞ that the reference's reduction is — because every term is at least 0.
-/
import proofs.«175186_j19155554140404_1_alg».proof.Proof.Steps
import proofs.«175186_j19155554140404_1_alg».proof.Proof.LibMaxChain
import Idealize.ShloMosaic.Lib.ValueIdx
import Idealize.ShloMosaic.Lib.ValueLayout
import Idealize.ShloMosaic.PureOps.Ideal.Laws

noncomputable section

namespace Cert.KernelIdeal.Agg

open Cert.KernelIdeal Cert.KernelIdeal.Gen Idealize.ShloMosaic Idealize.ShloMosaic.TcCoe Idealize.ShloMosaic.ValueIdx

/-! ## The matrix product at an entry -/

theorem lhs_axis0 (j : S1000x128.Idx) (q : dot_S1000x128_S128x128_S1000x128_1_0_0_1_n_n.contr.Idx) :
    (dot_S1000x128_S128x128_S1000x128_1_0_0_1_n_n.lhsIdx j q 0).val = (j 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs_axis1 (j : S1000x128.Idx) (q : dot_S1000x128_S128x128_S1000x128_1_0_0_1_n_n.contr.Idx) :
    (dot_S1000x128_S128x128_S1000x128_1_0_0_1_n_n.lhsIdx j q 1).val = (q ⟨0, by decide⟩).val :=
  dot_S1000x128_S128x128_S1000x128_1_0_0_1_n_n.lhsIdx_val_of_single rfl j q
theorem rhs_axis0 (j : S1000x128.Idx) (q : dot_S1000x128_S128x128_S1000x128_1_0_0_1_n_n.contr.Idx) :
    (dot_S1000x128_S128x128_S1000x128_1_0_0_1_n_n.rhsIdx j q 0).val = (q ⟨0, by decide⟩).val :=
  dot_S1000x128_S128x128_S1000x128_1_0_0_1_n_n.rhsIdx_val_of_single rfl j q
theorem rhs_axis1 (j : S1000x128.Idx) (q : dot_S1000x128_S128x128_S1000x128_1_0_0_1_n_n.contr.Idx) :
    (dot_S1000x128_S128x128_S1000x128_1_0_0_1_n_n.rhsIdx j q 1).val = (j 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The body's matrix product into the zero accumulator, at entry (p, o): row p of the left operand against column o
    of the right one. -/
theorem matmul_at (l : FVec Ideal S1000x128 .bf16) (r : FVec Ideal S128x128 .bf16) (p : Fin 1000) (o : Fin 128) :
    matmul dot_S1000x128_S128x128_S1000x128_1_0_0_1_n_n none l r (constant S1000x128 .f32 0x00000000#32) (ix2 p o)
      = ∑ i : Fin 128, l (ix2 p i) * r (ix2 i o) := by
  unfold matmul
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p o) ((ValueIdx.contrEquiv1 dot_S1000x128_S128x128_S1000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S1000x128_S128x128_S1000x128_1_0_0_1_n_n.rhsIdx (ix2 p o) ((ValueIdx.contrEquiv1 dot_S1000x128_S128x128_S1000x128_1_0_0_1_n_n 128 rfl rfl).symm k) = ix2 k o := funext fun a => Fin.ext (by
    match a with
    | ⟨0, _⟩ => exact (rhs_axis0 _ _).trans hk
    | ⟨1, _⟩ => exact rhs_axis1 _ _)
  rw [el, er]

/-! ## One step, a neighbour's rows, and the accumulator at an entry -/

/-- One step at entry (p, o). -/
theorem step_apply (w : FVec Ideal S128x128 .bf16) (b : FVec Ideal S128 .f32) (a X : FVec Ideal S1000x128 .f32)
    (p : Fin 1000) (o : Fin 128) :
    step (F := Ideal) w b a X (ix2 p o)
      = max (a (ix2 p o)) (max ((∑ i : Fin 128, X (ix2 p i) * w (ix2 i o)) + b (ix1 o)) 0) := by
  unfold step
  rw [maximumf_apply, maximumf_apply, addf_apply, matmul_at, broadcastTo_1b_ab_apply, shapeCast_a_1a_apply, broadcast_apply]
  show max _ (max ((∑ i : Fin 128, X (ix2 p i) * w (ix2 i o)) + b (ix1 o)) (Ideal.ofBits .f32 0x00000000#32)) = _
  rw [Ideal.ofBits_zero_f32]

/-- The rectangle of neighbour `k`'s slab sends the slab's entry (p, 0, i) to the block's entry (p, k, i). -/
theorem rowsRect_idx (k : Fin 32) (p : Fin 1000) (i : Fin 128) :
    (rowsRect k).idx (ix3 p (0 : Fin 1) i) = ix3 p k i := by
  funext a
  apply Fin.ext
  match a with
  | ⟨0, _⟩ => show 0 + 1 * p.val = p.val; omega
  | ⟨1, _⟩ => show k.val + 1 * 0 = k.val; omega
  | ⟨2, _⟩ => show 0 + 1 * i.val = i.val; omega

/-- A 1000 × 1 × 128 slab as a matrix, at (p, i), is the slab's entry (p, 0, i). -/
theorem flat_apply (v : Vec Ideal S1000x1x128 .f32) (p : Fin 1000) (i : Fin 128) :
    flat v (ix2 p i) = v (ix3 p (0 : Fin 1) i) := by
  unfold flat
  exact shapeCast_apply _ _ _ _ (by
    rw [Shape.rowMajor_val_three, Shape.rowMajor_val_two]
    show (p.val * 1 + 0) * 128 + i.val = p.val * 128 + i.val
    omega)

/-- Neighbour `k`'s rows of the block `x0` at (p, i) are the block's entry (p, k, i). -/
theorem rows_apply (x0 : Vec Ideal S1000x32x128 .f32) (k : Fin 32) (p : Fin 1000) (i : Fin 128) :
    rows x0 k (ix2 p i) = x0 (ix3 p k i) := by
  unfold rows
  refine (flat_apply (View.ld x0 (rowsRect k)) p i).trans ?_
  show x0 ((rowsRect k).idx (ix3 p (0 : Fin 1) i)) = _
  rw [rowsRect_idx]

/-- The term neighbour `k` contributes at entry (p, o). -/
def term (w : FVec Ideal S128x128 .bf16) (b : FVec Ideal S128 .f32) (X : Fin 32 → FVec Ideal S1000x128 .f32)
    (p : Fin 1000) (o : Fin 128) (k : Fin 32) : Ideal .f32 :=
  max ((∑ i : Fin 128, X k (ix2 p i) * w (ix2 i o)) + b (ix1 o)) 0

/-- The accumulator after `n` neighbours, at entry (p, o), is the running maximum from 0 of the first `n` terms. -/
theorem acc_apply (w : FVec Ideal S128x128 .bf16) (b : FVec Ideal S128 .f32) (X : Fin 32 → FVec Ideal S1000x128 .f32)
    (p : Fin 1000) (o : Fin 128) : ∀ (n : ℕ) (h : n ≤ 32),
    acc (F := Ideal) w b X n h (ix2 p o) = MaxChain.chain (term w b X p o) 0 n h
  | 0, h => by
    rw [acc_zero, MaxChain.chain_zero]
    show Ideal.ofBits .f32 0x00000000#32 = 0
    exact Ideal.ofBits_zero_f32
  | n + 1, h => by
    rw [acc_succ, MaxChain.chain_succ, step_apply, acc_apply w b X p o n (Nat.le_of_succ_le h)]
    rfl

/-- −∞, the value of the word the reference's reduction starts from, lies below every extended real. -/
theorem negInf_le (y : Ideal .f32) : Ideal.ofBits .f32 0xFF800000#32 ≤ y := by
  have e : Ideal.ofBits .f32 0xFF800000#32 = (⊥ : EReal) := by simp [Ideal.ofBits, Ideal.ieee]
  rw [e]; exact bot_le

/-- After all thirty-two neighbours the accumulator at (p, o) is the maximum of the thirty-two terms, written as the
    reference's reduction writes it: the fold of `max` from −∞. Each term is at least 0, where the accumulator started. -/
theorem acc_full_apply (w : FVec Ideal S128x128 .bf16) (b : FVec Ideal S128 .f32) (X : Fin 32 → FVec Ideal S1000x128 .f32)
    (p : Fin 1000) (o : Fin 128) :
    acc (F := Ideal) w b X 32 le_rfl (ix2 p o)
      = (Finset.univ : Finset (Fin 32)).fold max (Ideal.ofBits .f32 0xFF800000#32) (term w b X p o) := by
  rw [acc_apply]
  exact MaxChain.chain_eq_fold_bot _ _ _ (by decide) (fun k => le_max_right _ _) negInf_le

end Cert.KernelIdeal.Agg

end
-- ==== Proof.Spec.lean ====
/-
  What both programs compute, entry by entry, over the extended reals.

  From the gathered features `H` (50000 nodes × 32 neighbours × 128 input features), the weight matrix `W`
  (128 outputs × 128 inputs) and the bias `b`, the result at node n and output o is
      max over the 32 neighbours k of  max (∑ i, H (n, k, i) · W (o, i) + b o) 0,
  the maximum written as the fold of `max` from −∞ over the neighbours. No program is mentioned here.
-/
import Idealize.ShloMosaic.PureOps.Ideal
import Idealize.ShloMosaic.Lib.ValueIdx

noncomputable section

namespace AggSpec

open Idealize.ShloMosaic Idealize.ShloMosaic.ValueIdx

/-- Neighbour `k`'s term at node `n` and output `o`: the linear layer's value there, cut below at 0. -/
def nbTerm (H : (⟨3, ![50000, 32, 128]⟩ : Shape).Idx → Ideal .f32) (W : (⟨2, ![128, 128]⟩ : Shape).Idx → Ideal .f32)
    (b : (⟨1, ![128]⟩ : Shape).Idx → Ideal .f32) (n : Fin 50000) (o : Fin 128) (k : Fin 32) : Ideal .f32 :=
  max ((∑ i : Fin 128, H (ix3 n k i) * W (ix2 o i)) + b (ix1 o)) 0

/-- The result at node `n` and output `o`: the maximum of the neighbours' terms. -/
def aggAt (H : (⟨3, ![50000, 32, 128]⟩ : Shape).Idx → Ideal .f32) (W : (⟨2, ![128, 128]⟩ : Shape).Idx → Ideal .f32)
    (b : (⟨1, ![128]⟩ : Shape).Idx → Ideal .f32) (n : Fin 50000) (o : Fin 128) : Ideal .f32 :=
  (Finset.univ : Finset (Fin 32)).fold max (Ideal.ofBits .f32 0xFF800000#32) (nbTerm H W b n o)

/-- The whole result array. -/
def agg (H : (⟨3, ![50000, 32, 128]⟩ : Shape).Idx → Ideal .f32) (W : (⟨2, ![128, 128]⟩ : Shape).Idx → Ideal .f32)
    (b : (⟨1, ![128]⟩ : Shape).Idx → Ideal .f32) : (⟨2, ![50000, 128]⟩ : Shape).Idx → Ideal .f32 :=
  fun y => aggAt H W b (y 0) (y 1)

theorem agg_ix2 (H : (⟨3, ![50000, 32, 128]⟩ : Shape).Idx → Ideal .f32) (W : (⟨2, ![128, 128]⟩ : Shape).Idx → Ideal .f32)
    (b : (⟨1, ![128]⟩ : Shape).Idx → Ideal .f32) (n : Fin 50000) (o : Fin 128) :
    agg H W b (ix2 n o) = aggAt H W b n o := rfl

end AggSpec

end
-- ==== Proof.KernelValue.lean ====
/-
  The kernel's result array, whole.

  Grid point t (of 50) holds nodes 1000·t … 1000·t + 999: its block of the gathered features is those nodes' rows, the
  transposed weights and the bias are the same whole arrays at every point, and it writes back rows 1000·t … of the
  result. What it writes at (p, o) is the accumulator after all thirty-two neighbours, the specification's entry at
  node 1000·t + p and output o; the fifty blocks tile the result, so after the run the array is the specification of
  the arrays as the region finds them.
-/
import proofs.«175186_j19155554140404_1_alg».proof.Proof.StepsIdeal
import proofs.«175186_j19155554140404_1_alg».proof.Proof.Spec
import proofs.«175186_j19155554140404_1_alg».proof.Proof.Gen.KernelIdeal.Value
import Idealize.ShloMosaic.Lib.Pipeline.Value
import Idealize.ShloMosaic.Lib.ValueLayout
import Idealize.ShloMosaic.Lib.StableHlo.Run

noncomputable section

namespace Cert.KernelIdeal.Agg

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: point t's feature block and result block are the t-th along the node axis and
    the first along every other; the weights and the bias are fetched whole. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The node that row `p` of point `t`'s blocks is. -/
def node (t : Fin cfg0.N) (p : Fin 1000) : Fin 50000 :=
  ⟨t.val * 1000 + p.val, by have ht : t.val < 50 := t.isLt; have hp := p.isLt; omega⟩

/-- Point t's feature block at (p, k, i) is the features' entry (node t p, k, i). -/
theorem iblk0_apply (c : Dev nD) (t : Fin cfg0.N) (p : Fin 1000) (k : Fin 32) (i : Fin 128) :
    (iblk m c 0 t : Vec Ideal S1000x32x128 .f32) (ix3 p k i) = (V m c main_v6 : FVec Ideal S50000x32x128 .f32) (ix3 (node t p) k i) := by
  obtain ⟨e0, e1, e2, -⟩ := index_facts t
  unfold iblk
  rw [View.read_apply]
  show V m c main_v6 _ = V m c main_v6 _
  refine congrArg (V m c main_v6) (funext fun a => Fin.ext ?_)
  match a with
  | ⟨0, _⟩ => show win0_0.index t (0 : Fin 3) * 1000 + 1 * p.val = t.val * 1000 + p.val; rw [e0]; omega
  | ⟨1, _⟩ => show win0_0.index t (1 : Fin 3) * 32 + 1 * k.val = k.val; rw [e1]; omega
  | ⟨2, _⟩ => show win0_0.index t (2 : Fin 3) * 128 + 1 * i.val = i.val; rw [e2]; omega

/-- Every point's weight block is the whole transposed weight matrix. -/
theorem iblk1_apply (c : Dev nD) (t : Fin cfg0.N) (i o : Fin 128) :
    (iblk m c 1 t : Vec Ideal S128x128 .f32) (ix2 i o) = (V m c main_v7 : FVec Ideal S128x128 .f32) (ix2 i o) := by
  obtain ⟨-, -, -, e3, e4, -⟩ := index_facts t
  unfold iblk
  rw [View.read_apply]
  show V m c main_v7 _ = V m c main_v7 _
  refine congrArg (V m c main_v7) (funext fun a => Fin.ext ?_)
  match a with
  | ⟨0, _⟩ => show win0_1.index t (0 : Fin 2) * 128 + 1 * i.val = i.val; rw [e3]; omega
  | ⟨1, _⟩ => show win0_1.index t (1 : Fin 2) * 128 + 1 * o.val = o.val; rw [e4]; omega

/-- Every point's bias block is the whole bias. -/
theorem iblk2_apply (c : Dev nD) (t : Fin cfg0.N) (o : Fin 128) :
    (iblk m c 2 t : Vec Ideal S128 .f32) (ix1 o) = (V m c main_arg3 : FVec Ideal S128 .f32) (ix1 o) := by
  obtain ⟨-, -, -, -, -, e5, -⟩ := index_facts t
  unfold iblk
  rw [View.read_apply]
  show V m c main_arg3 _ = V m c main_arg3 _
  refine congrArg (V m c main_arg3) (funext fun a => Fin.ext ?_)
  match a with
  | ⟨0, _⟩ => show win0_2.index t (0 : Fin 1) * 128 + 1 * o.val = o.val; rw [e5]; omega

/-- Entry (p, o) of point t's result block is entry (node t p, o) of the result array. -/
theorem emb3_apply (t : Fin cfg0.N) (p : Fin 1000) (o : Fin 128) :
    ((cfg0.win 3).blk t).view.emb (ix2 p o) = ix2 (node t p) o := by
  obtain ⟨-, -, -, -, -, -, e6, e7⟩ := index_facts t
  funext a
  apply Fin.ext
  match a with
  | ⟨0, _⟩ => show win0_3.index t (0 : Fin 2) * 1000 + 1 * p.val = t.val * 1000 + p.val; rw [e6]; omega
  | ⟨1, _⟩ => show win0_3.index t (1 : Fin 2) * 128 + 1 * o.val = o.val; rw [e7]; omega

/-! ## The arrays as the region finds them -/

/-- The features the kernel is launched on: the rows of `x` that the neighbour table names, a negative entry counted
    from the end — the host operations before the call, as one term of the two arguments. -/
def gathered (x : FVec Ideal S50000x128 .f32) (nb : IVec S50000x32 32) : FVec Ideal S50000x32x128 .f32 :=
  Host.gather gather_S50000x128_S50000x32x1_S50000x32x128_2_0_n_n_0_2_1128 x
    (broadcastInDim S50000x32x1 ![0, 1] bcast_S50000x32_S50000x32x1_0_1
      (select (cmpi .slt nb (broadcastInDim S50000x32 ![] bcast_S_S50000x32 (constantI S_ 32 0#32)))
        (addi nb (broadcastInDim S50000x32 ![] bcast_S_S50000x32 (constantI S_ 32 50000#32))) nb))

theorem V_main_v6 (c : Dev nD) :
    (V m c main_v6 : FVec Ideal S50000x32x128 .f32) = gathered (m ((c : Thread nD τ).loc main_arg0)) (m ((c : Thread nD τ).loc main_arg1)) := by
  dsimp only [Gen.V, Gen.hostOps0]
  after_results
  rfl

theorem V_main_v7 (c : Dev nD) :
    (V m c main_v7 : FVec Ideal S128x128 .f32) = transpose S128x128 [1, 0] (m ((c : Thread nD τ).loc main_arg2)) transposes_S128x128_S128x128_1_0 := by
  dsimp only [Gen.V, Gen.hostOps0]
  after_results

/-- The transposed weights at (i, o) are the weights at (o, i). -/
theorem V_main_v7_apply (c : Dev nD) (i o : Fin 128) :
    (V m c main_v7 : FVec Ideal S128x128 .f32) (ix2 i o) = (m ((c : Thread nD τ).loc main_arg2) : FVec Ideal S128x128 .f32) (ix2 o i) := by
  rw [V_main_v7]
  exact transpose_ix2_apply _ _ i o

/-! ## What a point writes, and the whole array -/

/-- What the body leaves at (p, o) of its result block, from blocks given as variables: the maximum over the
    neighbours of the block's own terms. -/
theorem point_apply (x0 : Vec Ideal S1000x32x128 .f32) (x1 : Vec Ideal S128x128 .f32) (x2 : Vec Ideal S128 .f32)
    (p : Fin 1000) (o : Fin 128) :
    out0_3 x0 x1 x2 (ix2 p o)
      = (Finset.univ : Finset (Fin 32)).fold max (Ideal.ofBits .f32 0xFF800000#32)
          (fun k : Fin 32 => max ((∑ i : Fin 128, x0 (ix3 p k i) * x1 (ix2 i o)) + x2 (ix1 o)) 0) := by
  rw [stored_eq, View.canon_unit_zero zero2]
  refine (acc_full_apply _ _ _ p o).trans ?_
  refine congrArg (fun f => Finset.fold max (Ideal.ofBits .f32 0xFF800000#32) f Finset.univ) (funext fun k => ?_)
  unfold term
  have hb : View.ld x2 r0_1 = x2 := View.ld_unit_zero (S := S128) zero1 _ x2
  simp only [rows_apply, View.ld_unit_zero (S := S128x128) zero2]
  unfold k0_pay2
  simp only [shapeCast_self]
  rw [hb]
  rfl

/-- The specification of the arrays as the region finds them. -/
abbrev result (c : Dev nD) : FVec Ideal S50000x128 .f32 :=
  AggSpec.agg (gathered (m ((c : Thread nD τ).loc main_arg0)) (m ((c : Thread nD τ).loc main_arg1)))
    (m ((c : Thread nD τ).loc main_arg2)) (m ((c : Thread nD τ).loc main_arg3))

/-- What point t writes back is block t of the specification. -/
theorem flushed_eq (c : Dev nD) (t : Fin cfg0.N) :
    (dats m 0 c).flushed 3 t = ((cfg0.win 3).blk t).view.read (Elt Ideal) (result m c) := by
  rw [flushed3]
  funext j
  obtain ⟨p, o, rfl⟩ : ∃ (p : Fin 1000) (o : Fin 128), j = ix2 p o := ⟨j 0, j 1, eq_ix2 j⟩
  show out0_3 (iblk m c 0 t) (iblk m c 1 t) (iblk m c 2 t) (ix2 p o) = result m c (((cfg0.win 3).blk t).view.emb (ix2 p o))
  rw [emb3_apply]
  refine (point_apply (iblk m c 0 t) (iblk m c 1 t) (iblk m c 2 t) p o).trans ?_
  show _ = AggSpec.aggAt _ _ _ (node t p) o
  unfold AggSpec.aggAt
  refine congrArg (fun f => Finset.fold max (Ideal.ofBits .f32 0xFF800000#32) f Finset.univ) (funext fun k => ?_)
  unfold AggSpec.nbTerm
  rw [iblk2_apply, V_main_arg3]
  refine congrArg (fun s => max (s + _) 0) (Finset.sum_congr rfl fun i _ => ?_)
  rw [iblk0_apply, iblk1_apply, V_main_v7_apply, V_main_v6]

/-- The result's fifty blocks cover it: row r lies in block r / 1000. -/
theorem cover (i : S50000x128.Idx) : ∃ t : Fin cfg0.N, (cfg0.win 3).flush t = true ∧ i ∈ ((cfg0.win 3).blk t).view.set := by
  have h0 : (i 0).val < 50000 := (i 0).isLt
  have h1 : (i 1).val < 128 := (i 1).isLt
  have hN : cfg0.N = 50 := N_0
  let t : Fin cfg0.N := ⟨(i 0).val / 1000, by rw [hN]; omega⟩
  obtain ⟨-, -, -, -, -, -, e6, e7⟩ := index_facts t
  refine ⟨t, flush0_3 t, ?_⟩
  show i ∈ ((View.whole main_v8).slice (win0_3.rect t)).set
  rw [View.set_slice_whole, Rect.mem_set_unit]
  intro a
  have ht : t.val = (i 0).val / 1000 := rfl
  match a with
  | ⟨0, _⟩ => show win0_3.index t (0 : Fin 2) * 1000 ≤ (i 0).val ∧ (i 0).val < win0_3.index t (0 : Fin 2) * 1000 + 1000; rw [e6]; omega
  | ⟨1, _⟩ => show win0_3.index t (1 : Fin 2) * 128 ≤ (i 1).val ∧ (i 1).val < win0_3.index t (1 : Fin 2) * 128 + 128; rw [e7]; omega

/-- After the run the result array is the specification. -/
theorem final (c : Dev nD) : (dats m 0 c).arrAt 3 cfg0.N = result m c :=
  (dats m 0 c).arrAt_eq_of_cover 3 (result m c) (fun t _ => flushed_eq m c t) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Agg

end
-- ==== Proof.RefValue.lean ====
/-
  The reference's result array is the specification.

  The reference gathers the neighbours' features, contracts them with the weights over the input features, adds the
  bias, cuts below at 0 and reduces over the neighbour axis with `max` from −∞. Read at node n and output o: the
  reduction is the fold of `max` over the 32 neighbours k of the cut value at (n, k, o), and that value is the
  specification's term — the contraction the sum over i of features (n, k, i) times weights (o, i), the bias
  broadcast from its entry o.
-/
import proofs.«175186_j19155554140404_1_alg».proof.Proof.Spec
import proofs.«175186_j19155554140404_1_alg».proof.Proof.Gen.ReferenceIdeal.Read
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The reduction drops the neighbour axis. -/
theorem reduces : S50000x32x128.Reduces [1] S50000x128 := by decide

/-- Entry (n, o) of the result with neighbour k put back on the dropped axis is entry (n, k, o). -/
theorem lift_ix (n : Fin 50000) (o : Fin 128) (k : Fin (S50000x32x128.size 1)) :
    reduces.lift (ix2 n o) k = ix3 n (⟨k.val, k.isLt⟩ : Fin 32) o := by
  funext c
  apply Fin.ext
  fin_cases c <;> rfl

/-- The value before the reduction, at (n, k, o), is the specification's term of neighbour k. -/
theorem cut_apply (x0 : (⟨S50000x128, .f32⟩ : BufTy).Contents (Elt Ideal)) (x1 : (⟨S50000x32, .i32⟩ : BufTy).Contents (Elt Ideal))
    (x2 : (⟨S128x128, .f32⟩ : BufTy).Contents (Elt Ideal)) (x3 : (⟨S128, .f32⟩ : BufTy).Contents (Elt Ideal))
    (n : Fin 50000) (k : Fin 32) (o : Fin 128) :
    val_main_v11 (F := Ideal) x0 x1 x2 x3 (ix3 n k o) = AggSpec.nbTerm (val_main_v6 (F := Ideal) x0 x1) x2 x3 n o k := by
  rw [val_main_v11_apply, val_main_v10_apply, val_main_v7_apply, val_main_v9_apply, val_main_v8_apply,
    val_main_call0_v0_apply, val_main_call0_cst_apply]
  unfold AggSpec.nbTerm
  have el : ∀ i : Fin 128, lidx_main_v7 (ix3 n k o) i = ix3 n k i := fun i => funext fun a => Fin.ext (by
    match a with
    | ⟨0, _⟩ => rfl
    | ⟨1, _⟩ => rfl
    | ⟨2, _⟩ => rfl)
  have er : ∀ i : Fin 128, ridx_main_v7 (ix3 n k o) i = ix2 o i := fun i => funext fun a => Fin.ext (by
    match a with
    | ⟨0, _⟩ => rfl
    | ⟨1, _⟩ => rfl)
  have eb : idx_main_v8 (idx_main_v9 (ix3 n k o)) = ix1 o := funext fun a => Fin.ext (by
    match a with
    | ⟨0, _⟩ => rfl)
  simp only [el, er, eb]
  show max (_ + _) (Ideal.ofBits .f32 0x00000000#32) = _
  rw [Ideal.ofBits_zero_f32]

/-- The reference's result, as a function of its four arguments, is the specification of the gathered features, the
    weights and the bias. -/
theorem result_eq (x0 : (⟨S50000x128, .f32⟩ : BufTy).Contents (Elt Ideal)) (x1 : (⟨S50000x32, .i32⟩ : BufTy).Contents (Elt Ideal))
    (x2 : (⟨S128x128, .f32⟩ : BufTy).Contents (Elt Ideal)) (x3 : (⟨S128, .f32⟩ : BufTy).Contents (Elt Ideal)) :
    val_main_v12 (F := Ideal) x0 x1 x2 x3 = AggSpec.agg (val_main_v6 (F := Ideal) x0 x1) x2 x3 := by
  funext y
  obtain ⟨n, o, rfl⟩ : ∃ (n : Fin 50000) (o : Fin 128), y = ix2 n o := ⟨y 0, y 1, eq_ix2 y⟩
  rw [AggSpec.agg_ix2]
  unfold val_main_v12
  rw [Host.reduce_eq_fold_single FloatOps.maximumf _ _ reducesTo_S50000x32x128_S50000x128_d1 reduces h_S_]
  unfold AggSpec.aggAt
  have hf : (val_main_v11 (F := Ideal) x0 x1 x2 x3 ∘ reduces.lift (ix2 n o))
      = fun k : Fin 32 => AggSpec.nbTerm (val_main_v6 (F := Ideal) x0 x1) x2 x3 n o k :=
    funext fun k => by
      show val_main_v11 (F := Ideal) x0 x1 x2 x3 (reduces.lift (ix2 n o) k) = _
      rw [lift_ix]
      exact cut_apply x0 x1 x2 x3 n ⟨k.val, k.isLt⟩ o
  exact congrArg (fun f => Finset.fold max (Ideal.ofBits .f32 0xFF800000#32) f (Finset.univ : Finset (Fin 32))) hf

end Cert.ReferenceIdeal.RefValue

end
-- ==== Proof.lean ====
/-
  The kernel gathers each node's 32 neighbours' features, and for every block of 1000 nodes takes the neighbours one at
  a time: features times the transposed weights (on operands cut to bf16), plus the bias, cut below at 0, and the
  maximum with an accumulator that started at 0. The reference contracts all gathered features with the weights at once,
  adds the bias, cuts below at 0 and takes the maximum over the neighbour axis from −∞.

  Over the extended reals the cut to bf16 is the identity, the product into a zero accumulator is the sum of products,
  and the transposed weights at (i, o) are the weights at (o, i): neighbour by neighbour the two programs form the same
  term max (∑ i, h (n, k, i) · W (o, i) + b o) 0. The kernel's running maximum from 0 over the 32 terms and the
  reference's maximum from −∞ agree because every term is at least 0 and there is at least one. Sums, products and
  maxima are compared term for term, so no law is used that could fail at an infinity, and the precondition is not opened.
  The gathered features are the same host term of the first two arguments in both programs.

  The three frames are the generated ones (the reference's is its run with the result dropped); the kernel's
  idealization rewrote nothing.
-/
import proofs.«175186_j19155554140404_1_alg».proof.Defs
import proofs.«175186_j19155554140404_1_alg».proof.Proof.Gen.Kernel
import proofs.«175186_j19155554140404_1_alg».proof.Proof.Gen.Kernel.Skeleton
import proofs.«175186_j19155554140404_1_alg».proof.Proof.Gen.Kernel.Launch
import proofs.«175186_j19155554140404_1_alg».proof.Proof.Gen.Kernel.Points
import proofs.«175186_j19155554140404_1_alg».proof.Proof.Gen.Kernel.Frame
import proofs.«175186_j19155554140404_1_alg».proof.Proof.Gen.KernelIdeal
import proofs.«175186_j19155554140404_1_alg».proof.Proof.Gen.KernelIdeal.Skeleton
import proofs.«175186_j19155554140404_1_alg».proof.Proof.Gen.KernelIdeal.Launch
import proofs.«175186_j19155554140404_1_alg».proof.Proof.Gen.KernelIdeal.Points
import proofs.«175186_j19155554140404_1_alg».proof.Proof.Gen.KernelIdeal.Frame
import proofs.«175186_j19155554140404_1_alg».proof.Proof.Gen.ReferenceIdeal
import proofs.«175186_j19155554140404_1_alg».proof.Proof.Gen.Pre_finite_inputs
import proofs.«175186_j19155554140404_1_alg».proof.Proof.Gen.KernelIdeal.Value
import proofs.«175186_j19155554140404_1_alg».proof.Proof.Gen.ReferenceIdeal.Run
import proofs.«175186_j19155554140404_1_alg».proof.Proof.Gen.ReferenceIdeal.Read
import proofs.«175186_j19155554140404_1_alg».proof.Proof.KernelValue
import proofs.«175186_j19155554140404_1_alg».proof.Proof.RefValue
import Idealize.ShloMosaic.Adequacy
import Idealize.ShloMosaic.Init

noncomputable section

namespace Cert.Proof

open Idealize.ShloMosaic Idealize.ShloMosaic.TcCoe Idealize.SL.Sem

/-- The gathered features are one term of the node features and the neighbour table in both programs: the same index
    normalisation and the same gather, each program's shape records spelling the same shapes. -/
theorem gathered_eq (x : (⟨2, ![50000, 128]⟩ : Shape).Idx → Ideal .f32) (nb : (⟨2, ![50000, 32]⟩ : Shape).Idx → BitVec 32) :
    Cert.ReferenceIdeal.Read.val_main_v6 (F := Ideal) x nb = Cert.KernelIdeal.Agg.gathered x nb := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the specification of the same gathered features, weights and bias. -/
theorem algebraic : Cert.algebraic_KernelIdeal_ReferenceIdeal := by
  intro m ρ m' ρ' _ hagree
  refine ⟨fun c => Cert.KernelIdeal.Agg.result m c, Cert.KernelIdeal.Agg.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq,
    (hagree c).1, (hagree c).2.1, (hagree c).2.2.1, (hagree c).2.2.2, gathered_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
